-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x128x512 : S_.BroadcastsInDim S8x128x512 (![] : Fin 0 → Fin S8x128x512.rank)
  reducesTo_S8x128x512_S_d0_1_2 : S8x128x512.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x512x512 .f32) (main_arg1 : FVec F S8x128x512 .f32) (main_arg2 : FVec F S512x64 .f32) (main_arg3 : FVec F S512x64 .f32) (main_arg4 : FVec F S64 .f32) (main_arg5 : FVec F S64x64 .f32) (main_arg6 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_v13 main_v16
-- ==== Kernel.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S8x512x128x64 : Shape := ⟨4, ![8, 512, 128, 64]⟩
abbrev S1x64x512 : Shape := ⟨3, ![1, 64, 512]⟩
abbrev S1x128x512 : Shape := ⟨3, ![1, 128, 512]⟩
abbrev S1x64x128x64 : Shape := ⟨4, ![1, 64, 128, 64]⟩
abbrev S64x512 : Shape := ⟨2, ![64, 512]⟩
abbrev S128x512 : Shape := ⟨2, ![128, 512]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S1x1x64 : Shape := ⟨3, ![1, 1, 64]⟩
abbrev S8192x64 : Shape := ⟨2, ![8192, 64]⟩
abbrev S1x64 : Shape := ⟨2, ![1, 64]⟩

abbrev nBuf : Space → Nat
  | .hbm => 8
  | .vmem => 11
  | .smem => 0
  | _ => 0

abbrev bufTy : (tb : Table) → Fin (tcTables nBuf tb) → BufTy
  | .hbm, ⟨0, _⟩ => ⟨S8x512x512, .f32⟩
  | .hbm, ⟨1, _⟩ => ⟨S8x128x512, .f32⟩
  | .hbm, ⟨2, _⟩ => ⟨S512x64, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8x512x128x64, .f32⟩
  | .local _ .vmem, ⟨0, _⟩ => ⟨S1x64x512, .f32⟩
  | .local _ .vmem, ⟨1, _⟩ => ⟨S1x64x512, .f32⟩
  | .local _ .vmem, ⟨2, _⟩ => ⟨S1x128x512, .f32⟩
  | .local _ .vmem, ⟨3, _⟩ => ⟨S1x128x512, .f32⟩
  | .local _ .vmem, ⟨4, _⟩ => ⟨S512x64, .f32⟩
  | .local _ .vmem, ⟨5, _⟩ => ⟨S512x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S1x64x128x64, .f32⟩
  | .local _ .vmem, ⟨10, _⟩ => ⟨S1x64x128x64, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x64_S512x64_0_0 : ∀ a, (![0, 0] : Fin 2 → Nat) a + S512x64.size a ≤ S512x64.size a
  h_S512x64 : 0 < S512x64.numel
  shapeCasts_S64x64_S64x1x64 : S64x64.ShapeCasts S64x1x64
  shapeCasts_S128x64_S1x128x64 : S128x64.ShapeCasts S1x128x64
  broadcasts_S64x1x64_S64x128x64 : S64x1x64.Broadcasts S64x128x64
  broadcasts_S1x128x64_S64x128x64 : S1x128x64.Broadcasts S64x128x64
  inb_S64_S64_0 : ∀ a, (![0] : Fin 1 → Nat) a + S64.size a ≤ S64.size a
  h_S64 : 0 < S64.numel
  shapeCasts_S64_S1x1x64 : S64.ShapeCasts S1x1x64
  broadcasts_S1x1x64_S64x128x64 : S1x1x64.Broadcasts S64x128x64
  shapeCasts_S64x128x64_S8192x64 : S64x128x64.ShapeCasts S8192x64
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S8192x64 : S1x64.Broadcasts S8192x64
  shapeCasts_S8192x64_S64x128x64 : S8192x64.ShapeCasts S64x128x64
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S64x128x64 : S1x64x128x64.ShapeCasts S64x128x64
  shapeCasts_S64x128x64_S1x64x128x64 : S64x128x64.ShapeCasts S1x64x128x64
  dot_S64x512_S512x64_S64x64_1_0_0_1_n_n_wf : DotDims.WF S64x512 S512x64 S64x64 [1] [0] [0] [1] [] []
  dot_S128x512_S512x64_S128x64_1_0_0_1_n_n_wf : DotDims.WF S128x512 S512x64 S128x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x512x512.size a
  hwx0_0 : ∀ i : grid0.Coords, EltTy.bits .f32 = 32 ∨ (Rect.block (s := S8x512x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .f32 = 32 ∨ (Rect.block (s := S8x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x128x64.size a ≤ S8x512x128x64.size a
  hwx0_7 : ∀ i : grid0.Coords, EltTy.bits .f32 = 32 ∨ (Rect.block (s := S8x512x128x64) S1x64x128x64.size (cc0_transform_7 i) (hinb0_7 i)).WholeWords (EltTy.packing .f32)

variable [Facts₀]

def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x64x128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S8x512x64 : Shape := ⟨3, ![8, 512, 64]⟩
abbrev S8x128x64 : Shape := ⟨3, ![8, 128, 64]⟩
abbrev S8x512x1x64 : Shape := ⟨4, ![8, 512, 1, 64]⟩
abbrev S8x1x128x64 : Shape := ⟨4, ![8, 1, 128, 64]⟩
abbrev S8x512x128x64 : Shape := ⟨4, ![8, 512, 128, 64]⟩
abbrev S1x1x1x64 : Shape := ⟨4, ![1, 1, 1, 64]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x128x512, .f32⟩
  | .hbm, ⟨2, _⟩ => ⟨S512x64, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8x512x64, .f32⟩
  | .hbm, ⟨8, _⟩ => ⟨S8x128x64, .f32⟩
  | .hbm, ⟨9, _⟩ => ⟨S8x512x1x64, .f32⟩
  | .hbm, ⟨10, _⟩ => ⟨S8x1x128x64, .f32⟩
  | .hbm, ⟨11, _⟩ => ⟨S8x512x128x64, .f32⟩
  | .hbm, ⟨12, _⟩ => ⟨S8x512x128x64, .f32⟩
  | .hbm, ⟨13, _⟩ => ⟨S8x512x128x64, .f32⟩
  | .hbm, ⟨14, _⟩ => ⟨S1x1x1x64, .f32⟩
  | .hbm, ⟨15, _⟩ => ⟨S8x512x128x64, .f32⟩
  | .hbm, ⟨16, _⟩ => ⟨S8x512x128x64, .f32⟩
  | .hbm, ⟨17, _⟩ => ⟨S_, .f32⟩
  | .hbm, ⟨18, _⟩ => ⟨S8x512x128x64, .f32⟩
  | .hbm, ⟨19, _⟩ => ⟨S8x512x128x64, .f32⟩
  | .hbm, ⟨20, _⟩ => ⟨S8x512x128x64, .f32⟩
  | .hbm, ⟨21, _⟩ => ⟨S1x1x1x64, .f32⟩
  | .hbm, ⟨22, _⟩ => ⟨S8x512x128x64, .f32⟩
  | .hbm, ⟨23, _⟩ => ⟨S8x512x128x64, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x512x64_S8x512x1x64_0_1_3 : S8x512x64.BroadcastsInDim S8x512x1x64 (![0, 1, 3] : Fin 3 → Fin S8x512x1x64.rank)
  bcast_S8x128x64_S8x1x128x64_0_2_3 : S8x128x64.BroadcastsInDim S8x1x128x64 (![0, 2, 3] : Fin 3 → Fin S8x1x128x64.rank)
  bcast_S8x512x1x64_S8x512x128x64_0_1_2_3 : S8x512x1x64.BroadcastsInDim S8x512x128x64 (![0, 1, 2, 3] : Fin 4 → Fin S8x512x128x64.rank)
  bcast_S8x1x128x64_S8x512x128x64_0_1_2_3 : S8x1x128x64.BroadcastsInDim S8x512x128x64 (![0, 1, 2, 3] : Fin 4 → Fin S8x512x128x64.rank)
  bcast_S64_S1x1x1x64_3 : S64.BroadcastsInDim S1x1x1x64 (![3] : Fin 1 → Fin S1x1x1x64.rank)
  bcast_S1x1x1x64_S8x512x128x64_0_1_2_3 : S1x1x1x64.BroadcastsInDim S8x512x128x64 (![0, 1, 2, 3] : Fin 4 → Fin S8x512x128x64.rank)
  bcast_S_S8x512x128x64 : S_.BroadcastsInDim S8x512x128x64 (![] : Fin 0 → Fin S8x512x128x64.rank)
  dot_S8x512x512_S512x64_S8x512x64_2_0_01_1_n_n_wf : DotDims.WF S8x512x512 S512x64 S8x512x64 [2] [0] [0, 1] [1] [] []
  dot_S8x128x512_S512x64_S8x128x64_2_0_01_1_n_n_wf : DotDims.WF S8x128x512 S512x64 S8x128x64 [2] [0] [0, 1] [1] [] []
  dot_S8x512x128x64_S64x64_S8x512x128x64_3_0_012_1_n_n_wf : DotDims.WF S8x512x128x64 S64x64 S8x512x128x64 [3] [0] [0, 1, 2] [1] [] []

variable [Facts₀]

def dot_S8x512x512_S512x64_S8x512x64_2_0_01_1_n_n : DotDims S8x512x512 S512x64 S8x512x64 where
  lhsContracting := [2]
  rhsContracting := [0]
  lhsNonContracting := [0, 1]
  rhsNonContracting := [1]
  lhsBatch := []
  rhsBatch := []
  wf := dot_S8x512x512_S512x64_S8x512x64_2_0_01_1_n_n_wf
def dot_S8x128x512_S512x64_S8x128x64_2_0_01_1_n_n : DotDims S8x128x512 S512x64 S8x128x64 where
  lhsContracting := [2]
  rhsContracting := [0]
  lhsNonContracting := [0, 1]
  rhsNonContracting := [1]
  lhsBatch := []
  rhsBatch := []
  wf := dot_S8x128x512_S512x64_S8x128x64_2_0_01_1_n_n_wf
def dot_S8x512x128x64_S64x64_S8x512x128x64_3_0_012_1_n_n : DotDims S8x512x128x64 S64x64 S8x512x128x64 where
  lhsContracting := [3]
  rhsContracting := [0]
  lhsNonContracting := [0, 1, 2]
  rhsNonContracting := [1]
  lhsBatch := []
  rhsBatch := []
  wf := dot_S8x512x128x64_S64x64_S8x512x128x64_3_0_012_1_n_n_wf

class Facts : Prop extends Facts₀ where

variable [Facts]
-- ==== Proof.JointSpec.lean ====
/-
  The joint network as one function of its seven arrays.

  For a batch `b`, an acoustic frame `t` and a prediction step `s`, the hidden layer is the rectified sum of the two
  projections and the bias, `h_j = max ((∑_c a[b,t,c]·W_a[c,j] + ∑_c p[b,s,c]·W_p[c,j]) + b1[j], 0)`, and the output is
  `out[b,t,s,k] = (∑_j h_j·W_out[j,k]) + b2[k]`, on the extended reals. Only the row `a[b,t,·]` of the acoustic array and
  the row `p[b,s,·]` of the prediction array enter, so the layer is stated over two rows `A`, `P : Fin 512 → EReal`;
  a row of a block and the same row of the whole array then give one term. The zero of the rectifier is kept as the
  float word it is printed as.
-/
import Idealize.ShloMosaic.Lib.ValueIdx
import Idealize.ShloMosaic.PureOps.Ideal
import Idealize.ShloMosaic.PureOps.Ideal.Laws

noncomputable section

namespace Cert.Joint

open Idealize.ShloMosaic Idealize.ShloMosaic.ValueIdx

/-- Hidden unit `j` for an acoustic row `A` and a prediction row `P`: the two projections added, then the bias, rectified. -/
def hidden (A P : Fin 512 → EReal) (wa wp : (⟨2, ![512, 64]⟩ : Shape).Idx → EReal)
    (b1 : (⟨1, ![64]⟩ : Shape).Idx → EReal) (j : Fin 64) : EReal :=
  max (((∑ c : Fin 512, A c * wa (ix2 c j)) + (∑ c : Fin 512, P c * wp (ix2 c j))) + b1 (ix1 j))
    (Ideal.ofBits .f32 0x00000000#32)

/-- Output unit `k` for the two rows: the hidden layer through `W_out`, plus the second bias. -/
def logit (A P : Fin 512 → EReal) (wa wp : (⟨2, ![512, 64]⟩ : Shape).Idx → EReal)
    (b1 : (⟨1, ![64]⟩ : Shape).Idx → EReal) (wo : (⟨2, ![64, 64]⟩ : Shape).Idx → EReal)
    (b2 : (⟨1, ![64]⟩ : Shape).Idx → EReal) (k : Fin 64) : EReal :=
  (∑ j : Fin 64, hidden A P wa wp b1 j * wo (ix2 j k)) + b2 (ix1 k)

/-- The whole output array: entry `(b, t, s, k)` is output unit `k` for row `(b, t)` of `a` and row `(b, s)` of `p`. -/
def joint (a : (⟨3, ![8, 512, 512]⟩ : Shape).Idx → EReal) (p : (⟨3, ![8, 128, 512]⟩ : Shape).Idx → EReal)
    (wa wp : (⟨2, ![512, 64]⟩ : Shape).Idx → EReal) (b1 : (⟨1, ![64]⟩ : Shape).Idx → EReal)
    (wo : (⟨2, ![64, 64]⟩ : Shape).Idx → EReal) (b2 : (⟨1, ![64]⟩ : Shape).Idx → EReal) :
    (⟨4, ![8, 512, 128, 64]⟩ : Shape).Idx → EReal := fun i =>
  logit (fun c => a (ix3 (⟨(i 0).val, (i 0).isLt⟩ : Fin 8) (⟨(i 1).val, (i 1).isLt⟩ : Fin 512) c))
    (fun c => p (ix3 (⟨(i 0).val, (i 0).isLt⟩ : Fin 8) (⟨(i 2).val, (i 2).isLt⟩ : Fin 128) c))
    wa wp b1 wo b2 (⟨(i 3).val, (i 3).isLt⟩ : Fin 64)

/-- At an index written by coordinates. -/
theorem joint_ix4 (a : (⟨3, ![8, 512, 512]⟩ : Shape).Idx → EReal) (p : (⟨3, ![8, 128, 512]⟩ : Shape).Idx → EReal)
    (wa wp : (⟨2, ![512, 64]⟩ : Shape).Idx → EReal) (b1 : (⟨1, ![64]⟩ : Shape).Idx → EReal)
    (wo : (⟨2, ![64, 64]⟩ : Shape).Idx → EReal) (b2 : (⟨1, ![64]⟩ : Shape).Idx → EReal)
    (b : Fin 8) (t : Fin 512) (s : Fin 128) (k : Fin 64) :
    joint a p wa wp b1 wo b2 (ix4 b t s k)
      = logit (fun c => a (ix3 b t c)) (fun c => p (ix3 b s c)) wa wp b1 wo b2 k := rfl

end Cert.Joint

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.LibRank3Layout.lean ====
/-
  Rank-3 layout operations read at an index written by coordinates.

  A shape cast keeps the row-major position, so merging the two leading axes of an `[a, b, c]` array into one axis of
  extent `n = a * b` reads, at `(r, k)` with `r = i * b + j`, the operand at `(i, j, k)`, and splitting that axis again
  reads the other way; a unit axis put in the middle (`[a, c]` to `[a, 1, c]`) or two in front (`[c]` to `[1, 1, c]`)
  changes no position. A broadcast to `[a, b, c]` reads the operand at `0` on each of its unit axes and at the result's
  own coordinate on the others. Every index is built by `ix1`, `ix2`, `ix3`; the extents are arbitrary.
-/
import Idealize.ShloMosaic.Lib.ValueIdx
import Idealize.ShloMosaic.Lib.Pipeline.Value

noncomputable section

namespace Cert.Lib.Rank3Layout

open Idealize.ShloMosaic Idealize.ShloMosaic.ValueIdx

variable {α : Type}

/-- `[a, b, c]` cast to `[n, c]` (the two leading axes merged): at `(r, k)`, `r = i * b + j`, the operand at `(i, j, k)`. -/
theorem shapeCast_merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[n, c]` cast to `[a, b, c]` (the leading axis split): at `(i, j, k)` the operand at `(r, k)`, `r = i * b + j`. -/
theorem shapeCast_split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- `[a, c]` cast to `[a, 1, c]`: at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- `[c]` cast to `[1, 1, c]`: at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- `[a, 1, c]` broadcast to `[a, b, c]`: at `(i, j, k)` the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`: at `(i, j, k)` the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, 1, c]` broadcast to `[a, b, c]`: at `(i, j, k)` the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib.Rank3Layout

end
-- ==== Proof.BodyJoint.lean ====
/-
  What the kernel body computes from its blocks, entry by entry.

  The body's one store writes, at `(0, t, s, k)` of its `[1, 64, 128, 64]` output block, the value of the joint network
  for row `t` of its acoustic block and row `s` of its prediction block: the two projections are plain matrix products
  into zero accumulators (sums over the 512 features; the casts to bf16 are the identity on extended reals), they are
  laid along a frame axis and a step axis and added, the bias is added, the sum is rectified, the `[64, 128, 64]` array is
  read as `[8192, 64]` with row `t·128 + s`, multiplied by `W_out` (a sum over the 64 hidden units), the second bias is
  added, and the rows are split again. Every layout step keeps or copies coordinates, so the entry is `Joint.logit` of
  the two rows.
-/
import proofs.«171022_j41403484733770_1_alg».proof.Proof.Gen.KernelIdeal.Skeleton
import proofs.«171022_j41403484733770_1_alg».proof.Proof.JointSpec
import proofs.«171022_j41403484733770_1_alg».proof.Proof.LibPlainMatmul
import proofs.«171022_j41403484733770_1_alg».proof.Proof.LibRank3Layout
import Idealize.ShloMosaic.Lib.ValueLayout
import Idealize.ShloMosaic.Lib.Pipeline.Value

noncomputable section

namespace Cert.KernelIdeal.BodyJoint

open Cert.KernelIdeal Cert.KernelIdeal.Gen
open Idealize.ShloMosaic Idealize.ShloMosaic.TcCoe Idealize.ShloMosaic.ValueIdx
open Cert.Lib

/-- Row `t·128 + s` of the `[8192, 64]` reading of a `[64, 128, 64]` array. -/
abbrev row (t : Fin 64) (s : Fin 128) : Fin 8192 := ⟨t.val * 128 + s.val, by have := t.isLt; have := s.isLt; omega⟩

/-- THE BODY'S ENTRY at `(u, t, s, k)` is output unit `k` of the joint network for row `t` of the acoustic block and row
    `s` of the prediction block. -/
theorem pay_apply (v0 : Vec Ideal S1x64x512 .f32) (v3 : Vec Ideal S1x128x512 .f32) (v6 v8 : Vec Ideal S512x64 .f32)
    (v17 : Vec Ideal S64 .f32) (v25 : Vec Ideal S64x64 .f32) (v28 : Vec Ideal S64 .f32)
    (u : Fin 1) (t : Fin 64) (s : Fin 128) (k : Fin 64) :
    k0_pay1 (F := Ideal) v0 v3 v6 v8 v17 v25 v28 (ix4 u t s k)
      = Cert.Joint.logit (fun c => v0 (ix3 (0 : Fin 1) t c)) (fun c => v3 (ix3 (0 : Fin 1) s c)) v6 v8 v17 v25 v28 k := by
  unfold k0_pay1
  -- the block's rows split again, the second bias, and the second product's entry at row `t·128 + s`
  rw [shapeCast_abc_1abc_apply, Rank3Layout.shapeCast_split_apply _ _ t s k (row t s) rfl, addf_apply,
    broadcastTo_1b_ab_apply, shapeCast_a_1a_apply]
  refine (congrArg (· + v28 (ix1 k)) (PlainMatmul.matmul_zero_apply none _ _ (row t s) k)).trans ?_
  unfold Cert.Joint.logit
  refine congrArg (· + v28 (ix1 k)) (Finset.sum_congr rfl fun j _ => ?_)
  -- the hidden layer at `(t, s, j)`: the rectified sum of the two projections' entries and the bias
  rw [truncf_apply, truncf_apply, Rank3Layout.shapeCast_merge_apply _ _ t s j (row t s) rfl, maximumf_apply, addf_apply,
    addf_apply, broadcast_apply, Rank3Layout.broadcastTo_a1c_abc_apply, Rank3Layout.shapeCast_ac_a1c_apply,
    Rank3Layout.broadcastTo_1bc_abc_apply, shapeCast_ab_1ab_apply, Rank3Layout.broadcastTo_11c_abc_apply,
    Rank3Layout.shapeCast_c_11c_apply]
  unfold Cert.Joint.hidden
  refine congrArg (fun z => max z (Ideal.ofBits .f32 0x00000000#32) * v25 (ix2 j k)) ?_
  refine congrArg (· + v17 (ix1 j)) ?_
  -- each projection's entry: a sum over the 512 features of the block's row against the weight's column
  refine congrArg₂ (· + ·) ?_ ?_
  · refine (PlainMatmul.matmul_zero_apply none _ _ t j).trans (Finset.sum_congr rfl fun c _ => ?_)
    rw [truncf_apply, truncf_apply, shapeCast_1ab_ab_apply]
  · refine (PlainMatmul.matmul_zero_apply none _ _ s j).trans (Finset.sum_congr rfl fun c _ => ?_)
    rw [truncf_apply, truncf_apply, shapeCast_1ab_ab_apply]

end Cert.KernelIdeal.BodyJoint

end
-- ==== Proof.JointValue.lean ====
/-
  The kernel's result array is the joint network of its arguments.

  The grid has one point per batch `b` and tile `τ` of 64 acoustic frames. At that point the acoustic window's block is
  rows `64τ … 64τ + 63` of batch `b`, the prediction window's block is all of batch `b`, the five parameter windows'
  blocks are their whole arrays, and the output window's block is frames `64τ … 64τ + 63` of batch `b` (all steps, all
  units). The body's entry at `(0, t, s, k)` is output unit `k` for row `t` of the acoustic block and row `s` of the
  prediction block, that is for rows `(b, 64τ + t)` and `(b, s)` of the arrays: the block written back at the point is
  the block of `Joint.joint` there. The 64 blocks tile the output array, so the array ends at `Joint.joint`.
-/
import proofs.«171022_j41403484733770_1_alg».proof.Proof.Gen.KernelIdeal.Value
import proofs.«171022_j41403484733770_1_alg».proof.Proof.BodyJoint
import Idealize.ShloMosaic.Lib.Pipeline.Value

noncomputable section

namespace Cert.KernelIdeal.JointValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The joint network of the argument arrays as the region finds them. -/
abbrev G (c : Dev nD) : S8x512x128x64.Idx → EReal :=
  Cert.Joint.joint (V m c main_arg0) (V m c main_arg1) (V m c main_arg2) (V m c main_arg3) (V m c main_arg4)
    (V m c main_arg5) (V m c main_arg6)

/-- The index maps, decided over the 64 grid points: the acoustic and output blocks move together on the batch and
    frame-tile axes, the prediction block on the batch axis, and every other block index is zero. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (2 : Fin 4) = 0 ∧ win0_7.index t (3 : Fin 4) = 0
    ∧ win0_7.index t (0 : Fin 4) ≤ 7 ∧ win0_7.index t (1 : Fin 4) ≤ 7 :=
  (by decide +kernel : ∀ t : Fin grid0.N, _)

/-- Every (batch, frame tile) pair is some point's output block. -/
theorem idx_onto : ∀ (q0 q1 : Fin 8), ∃ t : Fin cfg0.N, win0_7.index t = ![q0.val, q1.val, 0, 0] :=
  (by decide +kernel : ∀ (q0 q1 : Fin 8), ∃ t : Fin grid0.N, win0_7.index t = ![q0.val, q1.val, 0, 0])

/-- A parameter window whose block index is zero on both axes holds its whole array. -/
theorem wblk2 (c : Dev nD) (t : Fin cfg0.N) : (iblk m c 2 t : Vec Ideal S512x64 .f32) = V m c main_arg2 := by
  obtain ⟨-, -, -, -, -, -, e0, e1, -⟩ := idx_facts t
  funext x
  unfold iblk
  rw [View.read_apply]
  show V m c main_arg2 _ = V m c main_arg2 x
  congr 1
  funext a
  apply Fin.ext
  match a with
  | ⟨0, _⟩ => show win0_2.index t (0 : Fin 2) * 512 + 1 * (x 0).val = (x 0).val; rw [e0]; omega
  | ⟨1, _⟩ => show win0_2.index t (1 : Fin 2) * 64 + 1 * (x 1).val = (x 1).val; rw [e1]; omega

theorem wblk3 (c : Dev nD) (t : Fin cfg0.N) : (iblk m c 3 t : Vec Ideal S512x64 .f32) = V m c main_arg3 := by
  obtain ⟨-, -, -, -, -, -, -, -, e0, e1, -⟩ := idx_facts t
  funext x
  unfold iblk
  rw [View.read_apply]
  show V m c main_arg3 _ = V m c main_arg3 x
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 64 + 1 * (x 1).val = (x 1).val; rw [e1]; omega

theorem wblk4 (c : Dev nD) (t : Fin cfg0.N) : (iblk m c 4 t : Vec Ideal S64 .f32) = V m c main_arg4 := by
  obtain ⟨-, -, -, -, -, -, -, -, -, -, e0, -⟩ := idx_facts t
  funext x
  unfold iblk
  rw [View.read_apply]
  show V m c main_arg4 _ = V m c main_arg4 x
  congr 1
  funext a
  apply Fin.ext
  match a with
  | ⟨0, _⟩ => show win0_4.index t (0 : Fin 1) * 64 + 1 * (x 0).val = (x 0).val; rw [e0]; omega

theorem wblk5 (c : Dev nD) (t : Fin cfg0.N) : (iblk m c 5 t : Vec Ideal S64x64 .f32) = V m c main_arg5 := by
  obtain ⟨-, -, -, -, -, -, -, -, -, -, -, e0, e1, -⟩ := idx_facts t
  funext x
  unfold iblk
  rw [View.read_apply]
  show V m c main_arg5 _ = V m c main_arg5 x
  congr 1
  funext a
  apply Fin.ext
  match a with
  | ⟨0, _⟩ => show win0_5.index t (0 : Fin 2) * 64 + 1 * (x 0).val = (x 0).val; rw [e0]; omega
  | ⟨1, _⟩ => show win0_5.index t (1 : Fin 2) * 64 + 1 * (x 1).val = (x 1).val; rw [e1]; omega

theorem wblk6 (c : Dev nD) (t : Fin cfg0.N) : (iblk m c 6 t : Vec Ideal S64 .f32) = V m c main_arg6 := by
  obtain ⟨-, -, -, -, -, -, -, -, -, -, -, -, -, e0, -⟩ := idx_facts t
  funext x
  unfold iblk
  rw [View.read_apply]
  show V m c main_arg6 _ = V m c main_arg6 x
  congr 1
  funext a
  apply Fin.ext
  match a with
  | ⟨0, _⟩ => show win0_6.index t (0 : Fin 1) * 64 + 1 * (x 0).val = (x 0).val; rw [e0]; omega

/-- Row `r` of the acoustic block at point `t` is row `(b, 64τ + r)` of the acoustic array, `(b, τ)` the point's
    output block index. -/
theorem ablk_row (c : Dev nD) (t : Fin cfg0.N) (r : Fin 64) (f : Fin 512) (b : Fin 8) (T : Fin 512)
    (hb : b.val = win0_7.index t (0 : Fin 4)) (hT : T.val = win0_7.index t (1 : Fin 4) * 64 + r.val) :
    (iblk m c 0 t : Vec Ideal S1x64x512 .f32) (ix3 (0 : Fin 1) r f) = V m c main_arg0 (ix3 b T f) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 64 + 1 * r.val = T.val; rw [e1, hT]; omega
  | ⟨2, _⟩ => show win0_0.index t (2 : Fin 3) * 512 + 1 * f.val = f.val; rw [e2]; omega

/-- Row `s` of the prediction block at point `t` is row `(b, s)` of the prediction array. -/
theorem pblk_row (c : Dev nD) (t : Fin cfg0.N) (s : Fin 128) (f : Fin 512) (b : Fin 8)
    (hb : b.val = win0_7.index t (0 : Fin 4)) :
    (iblk m c 1 t : Vec Ideal S1x128x512 .f32) (ix3 (0 : Fin 1) s f) = V m c main_arg1 (ix3 b s f) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 128 + 1 * s.val = s.val; rw [e1]; omega
  | ⟨2, _⟩ => show win0_1.index t (2 : Fin 3) * 512 + 1 * f.val = f.val; rw [e2]; omega

/-- WHAT POINT `t` WRITES BACK is the block at `t` of the joint network of the argument arrays. -/
theorem flushed_eq (c : Dev nD) (t : Fin cfg0.N) :
    (dats m 0 c).flushed 7 t = ((cfg0.win 7).blk t).view.read (Elt Ideal) (G m c) := by
  rw [flushed7]
  unfold out0_7
  rw [View.canon_unit_zero hz4]
  simp only [View.ld_unit_zero (S := S1x64x512) hz3, View.ld_unit_zero (S := S1x128x512) hz3,
    View.ld_unit_zero (S := S512x64) hz2, View.ld_unit_zero (S := S64) hz1, View.ld_unit_zero (S := S64x64) hz2]
  obtain ⟨-, -, -, -, -, -, -, -, -, -, -, -, -, -, e2, e3, l0, l1⟩ := idx_facts t
  funext y
  have hy0 : (y 0).val < 1 := (y 0).isLt
  have hy1 : (y 1).val < 64 := (y 1).isLt
  have hy2 : (y 2).val < 128 := (y 2).isLt
  have hy3 : (y 3).val < 64 := (y 3).isLt
  -- the block index the body's entry is read at, by coordinates
  have ey : (cfg0.win 7).xinj (grid0.coords t) y
      = ix4 (⟨(y 0).val, hy0⟩ : Fin 1) (⟨(y 1).val, hy1⟩ : Fin 64) (⟨(y 2).val, hy2⟩ : Fin 128) (⟨(y 3).val, hy3⟩ : Fin 64) :=
    funext fun a => by
      match a with
      | ⟨0, _⟩ => rfl
      | ⟨1, _⟩ => rfl
      | ⟨2, _⟩ => rfl
      | ⟨3, _⟩ => rfl
  -- the array index that element sits at: batch `b`, frame `64τ + y₁`, the step and the unit unchanged
  have ei : ((cfg0.win 7).blk t).view.emb y
      = ix4 (⟨win0_7.index t (0 : Fin 4), by omega⟩ : Fin 8) (⟨win0_7.index t (1 : Fin 4) * 64 + (y 1).val, by omega⟩ : Fin 512)
          (⟨(y 2).val, hy2⟩ : Fin 128) (⟨(y 3).val, hy3⟩ : Fin 64) :=
    funext fun a => Fin.ext (by
      match a with
      | ⟨0, _⟩ => show win0_7.index t (0 : Fin 4) * 1 + 1 * (y 0).val = win0_7.index t (0 : Fin 4); omega
      | ⟨1, _⟩ => show win0_7.index t (1 : Fin 4) * 64 + 1 * (y 1).val = win0_7.index t (1 : Fin 4) * 64 + (y 1).val; omega
      | ⟨2, _⟩ => show win0_7.index t (2 : Fin 4) * 128 + 1 * (y 2).val = (y 2).val; rw [e2]; omega
      | ⟨3, _⟩ => show win0_7.index t (3 : Fin 4) * 64 + 1 * (y 3).val = (y 3).val; rw [e3]; omega)
  rw [View.read_apply, ei]
  show k0_pay1 (F := Ideal) (iblk m c 0 t) (iblk m c 1 t) (iblk m c 2 t) (iblk m c 3 t) (iblk m c 4 t) (iblk m c 5 t)
    (iblk m c 6 t) ((cfg0.win 7).xinj (grid0.coords t) y) = _
  rw [ey, BodyJoint.pay_apply]
  show _ = Cert.Joint.joint (V m c main_arg0) (V m c main_arg1) (V m c main_arg2) (V m c main_arg3) (V m c main_arg4)
    (V m c main_arg5) (V m c main_arg6) (ix4 _ _ _ _)
  rw [Cert.Joint.joint_ix4, wblk2, wblk3, wblk4, wblk5, wblk6]
  congr 1
  · funext f; exact ablk_row m c t _ f _ _ rfl rfl
  · funext f; exact pblk_row m c t _ f _ rfl

/-- An index of the output array is in point `t`'s block iff each coordinate is in the block's range on its axis. -/
theorem mem_blk (t : Fin cfg0.N) (i : S8x512x128x64.Idx) :
    i ∈ ((cfg0.win 7).blk t).view.set ↔ ∀ a : Fin 4, win0_7.index t a * S1x64x128x64.size a ≤ (i a).val
      ∧ (i a).val < win0_7.index t a * S1x64x128x64.size a + S1x64x128x64.size a := by
  show i ∈ ((View.whole main_v0).slice (win0_7.rect t)).set ↔ _
  rw [View.set_slice_whole, Rect.mem_set_unit]
  exact Iff.rfl

/-- The blocks tile the output array: index `(b, T, s, k)` is in the block of the point with block index `(b, T / 64)`. -/
theorem cover (i : S8x512x128x64.Idx) :
    ∃ t : Fin cfg0.N, (cfg0.win 7).flush t = true ∧ i ∈ ((cfg0.win 7).blk t).view.set := by
  have hi0 : (i 0).val < 8 := (i 0).isLt
  have hi1 : (i 1).val < 512 := (i 1).isLt
  have hi2 : (i 2).val < 128 := (i 2).isLt
  have hi3 : (i 3).val < 64 := (i 3).isLt
  obtain ⟨t, ht⟩ := idx_onto ⟨(i 0).val, hi0⟩ ⟨(i 1).val / 64, by omega⟩
  have q0 : win0_7.index t (0 : Fin 4) = (i 0).val := congrFun ht 0
  have q1 : win0_7.index t (1 : Fin 4) = (i 1).val / 64 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 64 ≤ (i 1).val ∧ (i 1).val < win0_7.index t (1 : Fin 4) * 64 + 64; omega
  | ⟨2, _⟩ => show win0_7.index t (2 : Fin 4) * 128 ≤ (i 2).val ∧ (i 2).val < win0_7.index t (2 : Fin 4) * 128 + 128; omega
  | ⟨3, _⟩ => show win0_7.index t (3 : Fin 4) * 64 ≤ (i 3).val ∧ (i 3).val < win0_7.index t (3 : Fin 4) * 64 + 64; omega

/-- THE OUTPUT ARRAY after the run is the joint network of the argument arrays. -/
theorem final (c : Dev nD) : (dats m 0 c).arrAt 7 cfg0.N = G m c :=
  (dats m 0 c).arrAt_eq_of_cover 7 (G m c) (fun t _ => flushed_eq m c t) cover

/-- The kernel's run, read: the result array at the joint network of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.JointValue

end
-- ==== Proof.RefJoint.lean ====
/-
  The reference computes the joint network.

  Read one operation at a time, the reference's result at `(b, t, s, k)` is its second matrix product's entry plus the
  second bias; the product's left operand at `(b, t, s, j)` is the rectified sum, in the reference's own order, of the
  acoustic projection at `(b, t, j)`, the prediction projection at `(b, s, j)` and the first bias at `j`, each
  projection a sum over the 512 features. The broadcasts only move coordinates. So the result is `Joint.joint` of the
  seven arguments.
-/
import proofs.«171022_j41403484733770_1_alg».proof.Proof.Gen.ReferenceIdeal.Read
import proofs.«171022_j41403484733770_1_alg».proof.Proof.JointSpec

noncomputable section

namespace Cert.ReferenceIdeal.RefJoint

open Cert.ReferenceIdeal Cert.ReferenceIdeal.Gen Cert.ReferenceIdeal.Read
open Idealize.ShloMosaic Idealize.ShloMosaic.TcCoe Idealize.ShloMosaic.ValueIdx

/-- The acoustic projection at `(b, t, j)`: row `(b, t)` of the acoustic array against column `j` of `W_a`. -/
theorem acoustic_proj (x0 : (⟨S8x512x512, .f32⟩ : BufTy).Contents (Elt Ideal)) (x2 : (⟨S512x64, .f32⟩ : BufTy).Contents (Elt Ideal))
    (b : Fin 8) (t : Fin 512) (j : Fin 64) :
    val_main_v0 (F := Ideal) x0 x2 (ix3 b t j) = ∑ c : Fin 512, x0 (ix3 b t c) * x2 (ix2 c j) := by
  rw [val_main_v0_apply]
  refine Finset.sum_congr rfl fun c _ => ?_
  have e1 : lidx_main_v0 (ix3 b t j) c = ix3 b t c := funext fun a => by
    match a with
    | ⟨0, _⟩ => rfl
    | ⟨1, _⟩ => rfl
    | ⟨2, _⟩ => rfl
  have e2 : ridx_main_v0 (ix3 b t j) c = ix2 c j := funext fun a => by
    match a with
    | ⟨0, _⟩ => rfl
    | ⟨1, _⟩ => rfl
  rw [e1, e2]

/-- The prediction projection at `(b, s, j)`: row `(b, s)` of the prediction array against column `j` of `W_p`. -/
theorem prediction_proj (x1 : (⟨S8x128x512, .f32⟩ : BufTy).Contents (Elt Ideal)) (x3 : (⟨S512x64, .f32⟩ : BufTy).Contents (Elt Ideal))
    (b : Fin 8) (s : Fin 128) (j : Fin 64) :
    val_main_v1 (F := Ideal) x1 x3 (ix3 b s j) = ∑ c : Fin 512, x1 (ix3 b s c) * x3 (ix2 c j) := by
  rw [val_main_v1_apply]
  refine Finset.sum_congr rfl fun c _ => ?_
  have e1 : lidx_main_v1 (ix3 b s j) c = ix3 b s c := funext fun a => by
    match a with
    | ⟨0, _⟩ => rfl
    | ⟨1, _⟩ => rfl
    | ⟨2, _⟩ => rfl
  have e2 : ridx_main_v1 (ix3 b s j) c = ix2 c j := funext fun a => by
    match a with
    | ⟨0, _⟩ => rfl
    | ⟨1, _⟩ => rfl
  rw [e1, e2]

/-- The rectified hidden layer at `(b, t, s, j)` is hidden unit `j` of rows `(b, t)` and `(b, s)`. -/
theorem hidden_at (x0 : (⟨S8x512x512, .f32⟩ : BufTy).Contents (Elt Ideal)) (x1 : (⟨S8x128x512, .f32⟩ : BufTy).Contents (Elt Ideal))
    (x2 x3 : (⟨S512x64, .f32⟩ : BufTy).Contents (Elt Ideal)) (x4 : (⟨S64, .f32⟩ : BufTy).Contents (Elt Ideal))
    (b : Fin 8) (t : Fin 512) (s : Fin 128) (j : Fin 64) :
    val_main_v10 (F := Ideal) x0 x1 x2 x3 x4 (ix4 b t s j)
      = Cert.Joint.hidden (fun c => x0 (ix3 b t c)) (fun c => x1 (ix3 b s c)) x2 x3 x4 j := by
  have ea : idx_main_v2 (idx_main_v4 (ix4 b t s j)) = ix3 b t j := funext fun a => by
    match a with
    | ⟨0, _⟩ => rfl
    | ⟨1, _⟩ => rfl
    | ⟨2, _⟩ => rfl
  have ep : idx_main_v3 (idx_main_v5 (ix4 b t s j)) = ix3 b s j := funext fun a => by
    match a with
    | ⟨0, _⟩ => rfl
    | ⟨1, _⟩ => rfl
    | ⟨2, _⟩ => rfl
  have eb : idx_main_v7 (idx_main_v8 (ix4 b t s j)) = ix1 j := funext fun a => by
    match a with
    | ⟨0, _⟩ => rfl
  rw [val_main_v10_apply, val_main_v9_apply, val_main_v6_apply, val_main_v4_apply, val_main_v2_apply, val_main_v5_apply,
    val_main_v3_apply, val_main_v8_apply, val_main_v7_apply, val_main_call0_v0_apply, val_main_call0_cst_apply,
    ea, ep, eb, acoustic_proj, prediction_proj]
  rfl

/-- THE REFERENCE'S RESULT is the joint network of its arguments. -/
theorem result_eq (x0 : (⟨S8x512x512, .f32⟩ : BufTy).Contents (Elt Ideal)) (x1 : (⟨S8x128x512, .f32⟩ : BufTy).Contents (Elt Ideal))
    (x2 x3 : (⟨S512x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v14 (F := Ideal) x0 x1 x2 x3 x4 x5 x6 = Cert.Joint.joint x0 x1 x2 x3 x4 x5 x6 := by
  funext i
  obtain ⟨b, t, s, k, rfl⟩ : ∃ (b : Fin 8) (t : Fin 512) (s : Fin 128) (k : Fin 64), i = ix4 b t s k :=
    ⟨i 0, i 1, i 2, i 3, eq_ix4 i⟩
  have eb : idx_main_v12 (idx_main_v13 (ix4 b t s k)) = ix1 k := funext fun a => by
    match a with
    | ⟨0, _⟩ => rfl
  rw [Cert.Joint.joint_ix4, val_main_v14_apply, val_main_v11_apply, val_main_v13_apply, val_main_v12_apply, eb]
  unfold Cert.Joint.logit
  show (∑ j : Fin 64, _ * _) + _ = _
  congr 1
  refine Finset.sum_congr rfl fun j _ => ?_
  have e1 : lidx_main_v11 (ix4 b t s k) j = ix4 b t s j := funext fun a => by
    match a with
    | ⟨0, _⟩ => rfl
    | ⟨1, _⟩ => rfl
    | ⟨2, _⟩ => rfl
    | ⟨3, _⟩ => rfl
  have e2 : ridx_main_v11 (ix4 b t s k) j = ix2 j k := funext fun a => by
    match a with
    | ⟨0, _⟩ => rfl
    | ⟨1, _⟩ => rfl
  rw [e1, e2, hidden_at]

end Cert.ReferenceIdeal.RefJoint

end
-- ==== Proof.lean ====
/-
  A fused joint network (two projections, a broadcast sum over frames and steps, a rectifier, an output projection) on a
  grid of (batch, tile of 64 frames), against the same network written with einsums.

  Over the extended reals both programs compute, at `(b, t, s, k)`,
  `(∑_j max ((∑_c a[b,t,c]·W_a[c,j] + ∑_c p[b,s,c]·W_p[c,j]) + b1[j], 0) · W_out[j,k]) + b2[k]`
  (`Joint.joint`), with the additions in the same order on both sides, so no law of the extended reals beyond
  re-indexing finite sums is used and the precondition is not opened. The kernel's casts to bf16 are the identity there,
  its products into zero accumulators are plain sums, and its reshapes only rename coordinates (`BodyJoint`); each grid
  point writes the block of `Joint.joint` for its batch and frame tile and the 64 blocks tile the result
  (`JointValue`). The reference's operations read one at a time give the same function (`RefJoint`). The three frames are
  the generated runs; no rewrite was made in idealizing the kernel, so that claim is trivial.
-/
import proofs.«171022_j41403484733770_1_alg».proof.Defs
import proofs.«171022_j41403484733770_1_alg».proof.Proof.Gen.Kernel
import proofs.«171022_j41403484733770_1_alg».proof.Proof.Gen.Kernel.Skeleton
import proofs.«171022_j41403484733770_1_alg».proof.Proof.Gen.Kernel.Launch
import proofs.«171022_j41403484733770_1_alg».proof.Proof.Gen.Kernel.Points
import proofs.«171022_j41403484733770_1_alg».proof.Proof.Gen.Kernel.Frame
import proofs.«171022_j41403484733770_1_alg».proof.Proof.Gen.KernelIdeal
import proofs.«171022_j41403484733770_1_alg».proof.Proof.Gen.KernelIdeal.Skeleton
import proofs.«171022_j41403484733770_1_alg».proof.Proof.Gen.KernelIdeal.Launch
import proofs.«171022_j41403484733770_1_alg».proof.Proof.Gen.KernelIdeal.Points
import proofs.«171022_j41403484733770_1_alg».proof.Proof.Gen.KernelIdeal.Frame
import proofs.«171022_j41403484733770_1_alg».proof.Proof.Gen.ReferenceIdeal
import proofs.«171022_j41403484733770_1_alg».proof.Proof.Gen.Pre_finite_inputs
import proofs.«171022_j41403484733770_1_alg».proof.Proof.Gen.KernelIdeal.Value
import proofs.«171022_j41403484733770_1_alg».proof.Proof.Gen.ReferenceIdeal.Run
import proofs.«171022_j41403484733770_1_alg».proof.Proof.Gen.ReferenceIdeal.Read
import proofs.«171022_j41403484733770_1_alg».proof.Proof.JointValue
import proofs.«171022_j41403484733770_1_alg».proof.Proof.RefJoint
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the joint network of the arguments, which agree. -/
theorem algebraic : Cert.algebraic_KernelIdeal_ReferenceIdeal := by
  intro m ρ m' ρ' _ hagree
  refine ⟨fun c => Cert.KernelIdeal.JointValue.G m c, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v14_eq, Cert.ReferenceIdeal.RefJoint.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
